-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S128x64 : Shape := ⟨2, ![128, 64]⟩
abbrev S1600000 : Shape := ⟨1, ![1600000]⟩
abbrev S1600000x41 : Shape := ⟨2, ![1600000, 41]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000x41 : S_.BroadcastsInDim S1600000x41 (![] : Fin 0 → Fin S1600000x41.rank)
  reducesTo_S1600000x41_S_d0_1 : S1600000x41.ReducesTo [0, 1] S_

variable [Facts]

def fn {F : FTy → Type} [FloatOps F] (main_arg0 : FVec F S50000x64 .f32) (main_arg1 : FVec F S128x64 .f32) (main_arg2 : IVec S1600000 32) (main_arg3 : IVec S1600000 32) (main_arg4 : FVec F S1600000x41 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000x41 .f32 := Host.absf main_arg4
  let main_cst_2 : FVec F S_ .f32 := constant S_ .f32 0x7F800000#32
  let main_v10 : FVec F S1600000x41 .f32 := broadcastInDim S1600000x41 ![] bcast_S_S1600000x41 main_cst_2
  let main_v11 : IVec S1600000x41 1 := cmpf .olt main_v9 main_v10
  let main_c_3 : IVec S_ 1 := constantI S_ 1 1#1
  let main_v12 : IVec S_ 1 := (fun x v => Host.reduce IntOp.andi x v reducesTo_S1600000x41_S_d0_1 h_S_) main_v11 main_c_3
  let main_v13 : IVec S_ 1 := andi main_v8 main_v12
  main_v13
-- ==== Kernel.lean ====
abbrev S50000x64 : Shape := ⟨2, ![50000, 64]⟩
abbrev S128x64 : Shape := ⟨2, ![128, 64]⟩
abbrev S1600000 : Shape := ⟨1, ![1600000]⟩
abbrev S1600000x41 : Shape := ⟨2, ![1600000, 41]⟩
abbrev S_ : Shape := ⟨0, ![]⟩
abbrev S1600000x1 : Shape := ⟨2, ![1600000, 1]⟩
abbrev S1600000x64 : Shape := ⟨2, ![1600000, 64]⟩
abbrev S64x64 : Shape := ⟨2, ![64, 64]⟩
abbrev S4000x64 : Shape := ⟨2, ![4000, 64]⟩

abbrev nBuf : Space → Nat
  | .hbm => 26
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000x41, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S64x64, .f32⟩
  | .hbm, ⟨15, _⟩ => ⟨S64x64, .f32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S64x64, .f32⟩
  | .local _ .vmem, ⟨4, _⟩ => ⟨S4000x64, .f32⟩
  | .local _ .vmem, ⟨5, _⟩ => ⟨S4000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x64_S64x64_0_0 : S128x64.Slices ![0, 0] S64x64
  slices_S128x64_S64x64_64_0 : S128x64.Slices ![64, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S50000x64_S1600000x1_S1600000x64_1_0_n_n_0_1_164_wf : GatherDims.WF S50000x64 S1600000x1 S1600000x64 [1] [0] [] [0] [] 1 ![1, 64]
  dot_S4000x64_S64x64_S4000x64_1_1_0_0_n_n_wf : DotDims.WF S4000x64 S64x64 S4000x64 [1] [1] [0] [0] [] []
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S1600000x64.size a
  hwx0_3 : ∀ i : grid0.Coords, EltTy.bits .f32 = 32 ∨ (Rect.block (s := S1600000x64) S4000x64.size (cc0_transform_3 i) (hinb0_3 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S4000x64_S64x64_S4000x64_1_1_0_0_n_n : DotDims S4000x64 S64x64 S4000x64 where
  lhsContracting := [1]
  rhsContracting := [1]
  lhsNonContracting := [0]
  rhsNonContracting := [0]
  lhsBatch := []
  rhsBatch := []
  wf := dot_S4000x64_S64x64_S4000x64_1_1_0_0_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_v6) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S128x64 : Shape := ⟨2, ![128, 64]⟩
abbrev S1600000 : Shape := ⟨1, ![1600000]⟩
abbrev S1600000x41 : Shape := ⟨2, ![1600000, 41]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S1600000x128 : Shape := ⟨2, ![1600000, 128]⟩

abbrev nBuf : Space → Nat
  | .hbm => 36
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000x41, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S64x128, .f32⟩
  | .hbm, ⟨15, _⟩ => ⟨S1600000x128, .f32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S1600000x64, .f32⟩
  | .hbm, ⟨25, _⟩ => ⟨S1600000x64, .f32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x64_S64x128_1_0 : S128x64.Transposes [1, 0] S64x128
  slices_S1600000x128_S1600000x64_0_0 : S1600000x128.Slices ![0, 0] S1600000x64
  slices_S1600000x128_S1600000x64_0_64 : S1600000x128.Slices ![0, 64] S1600000x64
  bcast_S_S1600000x64 : S_.BroadcastsInDim S1600000x64 (![] : Fin 0 → Fin S1600000x64.rank)
  gather_S50000x64_S1600000x1_S1600000x64_1_0_n_n_0_1_164_wf : GatherDims.WF S50000x64 S1600000x1 S1600000x64 [1] [0] [] [0] [] 1 ![1, 64]
  dot_S1600000x64_S64x128_S1600000x128_1_0_0_1_n_n_wf : DotDims.WF S1600000x64 S64x128 S1600000x128 [1] [0] [0] [1] [] []
  scatter_S50000x64_S1600000x1_S1600000x64_1_0_0_1_wf : ScatterDims.WF S50000x64 S1600000x1 S1600000x64 [1] [0] [0] 1

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.EdgeMessage.lean ====
/-
  The per-edge message as ONE function of the gathered neighbour features and the weight matrix.

  For edge `e` and output feature `j` (0 ≤ j < 64), with `h[e, ·]` the 64 features of the edge's target node
  and `W` the 128 × 64 weight of the linear layer (rows 0..63 the gate half, rows 64..127 the value half):

      message[e, j] = σ( ∑ₖ h[e,k] · W[j,k] ) · ( ∑ₖ h[e,k] · W[64+j,k] ),     σ(x) = 1 / (1 + e⁻ˣ).

  Both programs compute exactly this on the extended reals. One of them multiplies `h` by the two halves of `W`
  separately; the other multiplies by the transpose of all of `W` and splits the 128 columns afterwards. Entry
  `[k, r]` of the transpose is entry `[r, k]` of `W`, so column `r` of the one product is the row-`r` sum above:
  no rearrangement of a sum is needed, only the identification of indices, and so nothing here depends on the
  inputs being finite.
-/
import Idealize.ShloMosaic.PureOps.Ideal
import Idealize.ShloMosaic.PureOps.Ideal.Laws
import Idealize.ShloMosaic.Lib.ValueIdx

noncomputable section

namespace Cert.EdgeGate

open Idealize.ShloMosaic Idealize.ShloMosaic.ValueIdx

/-- One row of gathered features per edge. -/
abbrev SEdge : Shape := ⟨2, ![1600000, 64]⟩
/-- The linear layer's weight: gate rows on top of value rows. -/
abbrev SWeight : Shape := ⟨2, ![128, 64]⟩

/-- `∑ₖ h[e,k] · W[r,k]`: edge `e`'s features against row `r` of the weight. -/
def rowDot (h : SEdge.Idx → EReal) (W : SWeight.Idx → EReal) (e : Fin 1600000) (r : Fin 128) : EReal :=
  ∑ k : Fin 64, h (ix2 e k) * W (ix2 r k)

/-- Output feature `j`'s gate row of the weight: row `j`. -/
def gateRow (j : Fin 64) : Fin 128 := ⟨j.val, by have := j.isLt; omega⟩
/-- Output feature `j`'s value row of the weight: row `64 + j`. -/
def valueRow (j : Fin 64) : Fin 128 := ⟨64 + j.val, by have := j.isLt; omega⟩

/-- The message of edge `e` at output feature `j`: the sigmoid of the gate sum times the value sum. -/
def messageAt (h : SEdge.Idx → EReal) (W : SWeight.Idx → EReal) (e : Fin 1600000) (j : Fin 64) : EReal :=
  Ideal.logistic (rowDot h W e (gateRow j)) * rowDot h W e (valueRow j)

/-- The whole message array. -/
def message (h : SEdge.Idx → EReal) (W : SWeight.Idx → EReal) : SEdge.Idx → EReal :=
  fun i => messageAt h W ⟨(i 0).val, (i 0).isLt⟩ ⟨(i 1).val, (i 1).isLt⟩

theorem message_ix2 (h : SEdge.Idx → EReal) (W : SWeight.Idx → EReal) (e : Fin 1600000) (j : Fin 64) :
    message h W (ix2 e j) = messageAt h W e j := rfl

/-- The single-precision word `0x3F800000` is the number one. -/
theorem one_word : Ideal.ofBits .f32 0x3F800000#32 = 1 := by
  simp [Ideal.ofBits, Ideal.ieee, -EReal.coe_mul]; norm_num

/-- The sigmoid written out with a negation, an exponential, a sum and a quotient, the two ones given as
    single-precision words, is the sigmoid: on every extended real, the infinities included. -/
theorem expanded_logistic (x : EReal) :
    Ideal.div (Ideal.ofBits .f32 0x3F800000#32) (Ideal.ofBits .f32 0x3F800000#32 + Ideal.exp (-x)) = Ideal.logistic x := by
  rw [one_word]; rfl

end Cert.EdgeGate

end
-- ==== Proof.RefMessage.lean ====
/-
  The reference's message array is `EdgeGate.message` of the gathered features and the weight.

  The reference multiplies the gathered features `h` (1,600,000 × 64) by the transpose of the whole weight
  (64 × 128), takes columns 0..63 as the gate and columns 64..127 as the value, and forms
  `1 / (1 + e^(−gate)) · value`. Column `r` of that product at edge `e` is `∑ₖ h[e,k] · Wᵀ[k,r]`, and
  `Wᵀ[k,r] = W[r,k]`: the row-`r` sum of the specification, term by term. The gate column of output feature `j`
  is `j`, its value column `64 + j`. The quotient form of the sigmoid is the sigmoid on every extended real.
-/
import proofs.«170670_j34754875359431_1_alg».proof.Proof.Gen.ReferenceIdeal.Run
import proofs.«170670_j34754875359431_1_alg».proof.Proof.Gen.ReferenceIdeal.Read
import proofs.«170670_j34754875359431_1_alg».proof.Proof.EdgeMessage

noncomputable section

namespace Cert.ReferenceIdeal.RefMessage

open Cert.ReferenceIdeal Cert.ReferenceIdeal.Gen Cert.ReferenceIdeal.Read
open Idealize.ShloMosaic Idealize.ShloMosaic.ValueIdx Cert.EdgeGate

/-- In the gate column of feature `j`, the product's left factor at contraction index `k` is `h[e,k]`. -/
theorem gate_left (e : Fin 1600000) (j k : Fin 64) :
    lidx_main_v8 (idx_main_v9 (ix2 e j)) k = ix2 e k :=
  funext fun a => match a with | ⟨0, _⟩ => rfl | ⟨1, _⟩ => rfl

/-- and its right factor, read through the transpose, is `W[j,k]`. -/
theorem gate_right (e : Fin 1600000) (j k : Fin 64) :
    idx_main_v7 (ridx_main_v8 (idx_main_v9 (ix2 e j)) k) = ix2 (gateRow j) k :=
  funext fun a => match a with | ⟨0, _⟩ => rfl | ⟨1, _⟩ => rfl

/-- In the value column of feature `j` (column `64 + j`) the left factor is again `h[e,k]`. -/
theorem value_left (e : Fin 1600000) (j k : Fin 64) :
    lidx_main_v8 (idx_main_v10 (ix2 e j)) k = ix2 e k :=
  funext fun a => match a with | ⟨0, _⟩ => rfl | ⟨1, _⟩ => rfl

/-- and the right factor, through the transpose, is `W[64+j,k]`. -/
theorem value_right (e : Fin 1600000) (j k : Fin 64) :
    idx_main_v7 (ridx_main_v8 (idx_main_v10 (ix2 e j)) k) = ix2 (valueRow j) k :=
  funext fun a => match a with | ⟨0, _⟩ => rfl | ⟨1, _⟩ => rfl

/-- The reference's message stage, index by index, is the specification's message of the gathered features. -/
theorem message_eq (x0 : (⟨S50000x64, .f32⟩ : BufTy).Contents (Elt Ideal)) (x1 : (⟨S128x64, .f32⟩ : BufTy).Contents (Elt Ideal))
    (x3 : (⟨S1600000, .i32⟩ : BufTy).Contents (Elt Ideal)) :
    val_main_v17 (F := Ideal) x0 x1 x3 = message (val_main_v6 (F := Ideal) x0 x3) x1 := by
  funext i
  obtain ⟨e, j, rfl⟩ : ∃ (e : Fin 1600000) (j : Fin 64), i = ix2 e j := ⟨i 0, i 1, eq_ix2 i⟩
  rw [message_ix2, val_main_v17_apply, val_main_v16_apply, val_main_v15_apply, val_main_cst_1_apply, val_main_v14_apply,
    val_main_v13_apply, val_main_cst_apply, val_main_v12_apply, val_main_v11_apply, val_main_v9_apply, val_main_v10_apply,
    val_main_v8_apply, val_main_v8_apply]
  simp only [val_main_v7_apply, gate_left, gate_right, value_left, value_right, Ideal.mulf_def, Ideal.hostDivf_def,
    Ideal.addf_def, Ideal.hostUnary_exp_def, Ideal.hostNegf_def, Ideal.negf_def, Ideal.ofBits_def, expanded_logistic]
  rfl

end Cert.ReferenceIdeal.RefMessage

end
-- ==== Proof.EdgeBlock.lean ====
/-
  What the kernel body stores for one block of 4000 edges, at an index.

  The body loads a 4000 × 64 block `a` of gathered features and the two 64 × 64 halves `g`, `v` of the weight, and
  stores `σ(a · gᵀ) ⊙ (a · vᵀ)`. Each product contracts the feature axis of `a` against the feature axis of the
  weight half into a zero accumulator, so its entry `[p, q]` is `∑ₖ a[p,k] · g[q,k]` (respectively `v[q,k]`).
  The narrowing of the operands to a shorter float format is the identity on the extended reals.
-/
import proofs.«170670_j34754875359431_1_alg».proof.Proof.Gen.KernelIdeal.Skeleton
import proofs.«170670_j34754875359431_1_alg».proof.Proof.EdgeMessage
import Idealize.ShloMosaic.Lib.ValueIdx
import Idealize.ShloMosaic.Lib.Pipeline.Value
import Idealize.ShloMosaic.PureOps.Ideal.Laws

noncomputable section

namespace Cert.KernelIdeal.EdgeBlock

open Cert.KernelIdeal Cert.KernelIdeal.Gen
open Idealize.ShloMosaic Idealize.ShloMosaic.ValueIdx

/-! ## The product's operand indices, axis by axis -/

/-- The left operand's row is the output's row. -/
theorem lhs_row (i : S4000x64.Idx) (q : dot_S4000x64_S64x64_S4000x64_1_1_0_0_n_n.contr.Idx) :
    (dot_S4000x64_S64x64_S4000x64_1_1_0_0_n_n.lhsIdx i q 0).val = (i 0).val := by
  unfold DotDims.lhsIdx
  rw [dif_neg (show ¬(0 : Fin S4000x64.rank) ∈ dot_S4000x64_S64x64_S4000x64_1_1_0_0_n_n.lhsBatch by decide), dif_pos (show (0 : Fin S4000x64.rank) ∈ dot_S4000x64_S64x64_S4000x64_1_1_0_0_n_n.lhsNonContracting by decide)]
  rfl
/-- The left operand's column is the contraction index. -/
theorem lhs_contr (i : S4000x64.Idx) (q : dot_S4000x64_S64x64_S4000x64_1_1_0_0_n_n.contr.Idx) :
    (dot_S4000x64_S64x64_S4000x64_1_1_0_0_n_n.lhsIdx i q 1).val = (q ⟨0, by decide⟩).val :=
  dot_S4000x64_S64x64_S4000x64_1_1_0_0_n_n.lhsIdx_val_of_single rfl i q
/-- The right operand's row is the output's column. -/
theorem rhs_row (i : S4000x64.Idx) (q : dot_S4000x64_S64x64_S4000x64_1_1_0_0_n_n.contr.Idx) :
    (dot_S4000x64_S64x64_S4000x64_1_1_0_0_n_n.rhsIdx i q 0).val = (i 1).val := by
  unfold DotDims.rhsIdx
  rw [dif_neg (show ¬(0 : Fin S64x64.rank) ∈ dot_S4000x64_S64x64_S4000x64_1_1_0_0_n_n.rhsBatch by decide), dif_pos (show (0 : Fin S64x64.rank) ∈ dot_S4000x64_S64x64_S4000x64_1_1_0_0_n_n.rhsNonContracting by decide)]
  rfl
/-- The right operand's column is the contraction index. -/
theorem rhs_contr (i : S4000x64.Idx) (q : dot_S4000x64_S64x64_S4000x64_1_1_0_0_n_n.contr.Idx) :
    (dot_S4000x64_S64x64_S4000x64_1_1_0_0_n_n.rhsIdx i q 1).val = (q ⟨0, by decide⟩).val :=
  dot_S4000x64_S64x64_S4000x64_1_1_0_0_n_n.rhsIdx_val_of_single rfl i q

/-! ## One product into the zero accumulator -/

/-- Entry `[p, q]` of a block's product with a weight half, both contracted along their feature axes. -/
theorem block_product (a : FVec Ideal S4000x64 .bf16) (b : FVec Ideal S64x64 .bf16) (p : Fin 4000) (q : Fin 64) :
    matmul dot_S4000x64_S64x64_S4000x64_1_1_0_0_n_n none a b (constant S4000x64 .f32 0x00000000#32) (ix2 p q)
      = ∑ k : Fin 64, a (ix2 p k) * b (ix2 q k) := by
  refine (Ideal.matmul_constant_zero_apply dot_S4000x64_S64x64_S4000x64_1_1_0_0_n_n none a b (ix2 p q)).trans ?_
  rw [← Equiv.sum_comp (contrEquiv1 dot_S4000x64_S64x64_S4000x64_1_1_0_0_n_n 64 rfl rfl).symm]
  refine Finset.sum_congr rfl fun k _ => ?_
  have hk := contrEquiv1_symm_val dot_S4000x64_S64x64_S4000x64_1_1_0_0_n_n 64 rfl rfl k
  have el : dot_S4000x64_S64x64_S4000x64_1_1_0_0_n_n.lhsIdx (ix2 p q) ((contrEquiv1 dot_S4000x64_S64x64_S4000x64_1_1_0_0_n_n 64 rfl rfl).symm k) = ix2 p k := funext fun a => Fin.ext (by
    match a with
    | ⟨0, _⟩ => exact lhs_row _ _
    | ⟨1, _⟩ => exact (lhs_contr _ _).trans hk)
  have er : dot_S4000x64_S64x64_S4000x64_1_1_0_0_n_n.rhsIdx (ix2 p q) ((contrEquiv1 dot_S4000x64_S64x64_S4000x64_1_1_0_0_n_n 64 rfl rfl).symm k) = ix2 q k := funext fun a => Fin.ext (by
    match a with
    | ⟨0, _⟩ => exact rhs_row _ _
    | ⟨1, _⟩ => exact (rhs_contr _ _).trans hk)
  rw [el, er]

/-! ## The stored value -/

/-- The body's stored value at row `p`, feature `q`: the sigmoid of the gate sum times the value sum. -/
theorem payload_at (a : Vec Ideal S4000x64 .f32) (g v : Vec Ideal S64x64 .f32) (p : Fin 4000) (q : Fin 64) :
    k0_pay1 (F := Ideal) a g v (ix2 p q)
      = Ideal.logistic (∑ k : Fin 64, a (ix2 p k) * g (ix2 q k)) * (∑ k : Fin 64, a (ix2 p k) * v (ix2 q k)) := by
  unfold k0_pay1
  simp only [shapeCast_self]
  rw [mulf_apply]
  exact congrArg₂ (· * ·) (congrArg Ideal.logistic (block_product _ _ p q)) (block_product _ _ p q)

/-- A block whose row `p` is row `row p` of the gathered features `h`, loaded with the gate rows and the value
    rows of the weight `W`, stores row `row p` of the message array. -/
theorem payload_eq_message (a : Vec Ideal S4000x64 .f32) (g v : Vec Ideal S64x64 .f32)
    (h : Cert.EdgeGate.SEdge.Idx → EReal) (W : Cert.EdgeGate.SWeight.Idx → EReal) (row : Fin 4000 → Fin 1600000)
    (ha : ∀ (p : Fin 4000) (k : Fin 64), a (ix2 p k) = h (ix2 (row p) k))
    (hg : ∀ q k : Fin 64, g (ix2 q k) = W (ix2 (Cert.EdgeGate.gateRow q) k))
    (hv : ∀ q k : Fin 64, v (ix2 q k) = W (ix2 (Cert.EdgeGate.valueRow q) k)) (p : Fin 4000) (q : Fin 64) :
    k0_pay1 (F := Ideal) a g v (ix2 p q) = Cert.EdgeGate.message h W (ix2 (row p) q) := by
  rw [payload_at, Cert.EdgeGate.message_ix2]
  unfold Cert.EdgeGate.messageAt Cert.EdgeGate.rowDot
  simp only [ha, hg, hv]

end Cert.KernelIdeal.EdgeBlock

end
-- ==== Proof.EdgeArray.lean ====
/-
  The array the kernel region leaves: the whole message array.

  The region runs 400 grid points. Point `t` is handed rows `4000·t … 4000·t + 3999` of the gathered features, and
  the same two 64 × 64 halves of the weight at every point (rows 0..63 and rows 64..127 of the 128 × 64 weight), and
  writes back rows `4000·t … 4000·t + 3999` of its output. What it writes there is those rows of
  `EdgeGate.message` of the gathered features and the weight (the block lemma), and the 400 row blocks tile the
  1,600,000 rows: row `r` lies in the block of point `r / 4000`. So the output array ends as the message array.
-/
import proofs.«170670_j34754875359431_1_alg».proof.Proof.Gen.KernelIdeal.Frame
import proofs.«170670_j34754875359431_1_alg».proof.Proof.EdgeBlock
import Idealize.ShloMosaic.Lib.Pipeline.Value
import Idealize.ShloMosaic.Lib.StableHlo.Run

set_option maxRecDepth 16384

noncomputable section

namespace Cert.KernelIdeal.EdgeArray

open Cert.KernelIdeal Cert.KernelIdeal.Gen Cert.KernelIdeal.EdgeBlock Cert.EdgeGate
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

/-! ## The two halves of the weight, as the region finds them -/

/-- The gate half is rows 0..63 of the weight. -/
theorem gate_half (c : Dev nD) :
    (V m c main_v7 : S64x64.Idx → EReal)
      = extractStridedSlice S64x64 ![0, 0] (m ((c : Thread nD τ).loc main_arg1)) slices_S128x64_S64x64_0_0 := by
  show StableHlo.after hostOps0 (fun b => m (c, b)) (Proc.devRef .tc main_v7) = _
  after_results

/-- The value half is rows 64..127 of the weight. -/
theorem value_half (c : Dev nD) :
    (V m c main_v8 : S64x64.Idx → EReal)
      = extractStridedSlice S64x64 ![64, 0] (m ((c : Thread nD τ).loc main_arg1)) slices_S128x64_S64x64_64_0 := by
  show StableHlo.after hostOps0 (fun b => m (c, b)) (Proc.devRef .tc main_v8) = _
  after_results

/-- Entry `[q, k]` of the gate half is entry `[q, k]` of the weight. -/
theorem gate_half_at (c : Dev nD) (q k : Fin 64) :
    V m c main_v7 (ix2 q k) = m ((c : Thread nD τ).loc main_arg1) (ix2 (gateRow q) k) := by
  show (V m c main_v7 : S64x64.Idx → EReal) (ix2 q k) = _
  rw [gate_half]
  exact extractStridedSlice_apply ![0, 0] _ slices_S128x64_S64x64_0_0 (ix2 q k) (ix2 (gateRow q) k) (fun a => match a with
    | ⟨0, _⟩ => by show q.val = 0 + q.val; omega
    | ⟨1, _⟩ => by show k.val = 0 + k.val; omega)

/-- Entry `[q, k]` of the value half is entry `[64 + q, k]` of the weight. -/
theorem value_half_at (c : Dev nD) (q k : Fin 64) :
    V m c main_v8 (ix2 q k) = m ((c : Thread nD τ).loc main_arg1) (ix2 (valueRow q) k) := by
  show (V m c main_v8 : S64x64.Idx → EReal) (ix2 q k) = _
  rw [value_half]
  exact extractStridedSlice_apply ![64, 0] _ slices_S128x64_S64x64_64_0 (ix2 q k) (ix2 (valueRow q) k) (fun a => match a with
    | ⟨0, _⟩ => by show 64 + q.val = 64 + q.val; rfl
    | ⟨1, _⟩ => by show k.val = 0 + k.val; omega)

/-! ## Where each window's block sits -/

theorem origin : (![0, 0] : Fin 2 → Nat) = fun _ => 0 := funext fun a => by fin_cases a <;> rfl

/-- The block index maps, decided over the 400 points: the feature window and the output window are at row block `t`,
    the two weight halves at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `4000·t + p` of the array. -/
def edgeRow (t : Fin cfg0.N) (p : Fin 4000) : Fin 1600000 :=
  ⟨t.val * 4000 + p.val, by have ht : t.val < 400 := lt_of_lt_of_eq t.isLt N_0; have := p.isLt; omega⟩

/-- The feature block of point `t`, at `[p, k]`, is row `4000·t + p` of the gathered features. -/
theorem features_at (c : Dev nD) (t : Fin cfg0.N) (p : Fin 4000) (k : Fin 64) :
    iblk m c 0 t (ix2 p k) = V m c main_v6 (ix2 (edgeRow t p) k) := by
  show V m c main_v6 (((cfg0.win 0).blk t).view.emb (ix2 p k)) = V m c main_v6 (ix2 (edgeRow t p) k)
  obtain ⟨e0, e1, -⟩ := block_indices t
  have h : ((cfg0.win 0).blk t).view.emb (ix2 p k) = ix2 (edgeRow t p) k := by
    funext a; apply Fin.ext
    match a with
    | ⟨0, _⟩ => show win0_0.index t (0 : Fin 2) * 4000 + 1 * p.val = t.val * 4000 + p.val; omega
    | ⟨1, _⟩ => show win0_0.index t (1 : Fin 2) * 64 + 1 * k.val = k.val; omega
  rw [h]

/-- The gate window's block at every point is the gate half. -/
theorem gate_at (c : Dev nD) (t : Fin cfg0.N) (q k : Fin 64) :
    iblk m c 1 t (ix2 q k) = m ((c : Thread nD τ).loc main_arg1) (ix2 (gateRow q) k) := by
  refine Eq.trans ?_ (gate_half_at m c q k)
  show V m c main_v7 (((cfg0.win 1).blk t).view.emb (ix2 q k)) = V m c main_v7 (ix2 q k)
  obtain ⟨-, -, e2, e3, -⟩ := block_indices t
  have h : ((cfg0.win 1).blk t).view.emb (ix2 q k) = ix2 q k := by
    funext a; apply Fin.ext
    match a with
    | ⟨0, _⟩ => show win0_1.index t (0 : Fin 2) * 64 + 1 * q.val = q.val; omega
    | ⟨1, _⟩ => show win0_1.index t (1 : Fin 2) * 64 + 1 * k.val = k.val; omega
  rw [h]

/-- The value window's block at every point is the value half. -/
theorem value_at (c : Dev nD) (t : Fin cfg0.N) (q k : Fin 64) :
    iblk m c 2 t (ix2 q k) = m ((c : Thread nD τ).loc main_arg1) (ix2 (valueRow q) k) := by
  refine Eq.trans ?_ (value_half_at m c q k)
  show V m c main_v8 (((cfg0.win 2).blk t).view.emb (ix2 q k)) = V m c main_v8 (ix2 q k)
  obtain ⟨-, -, -, -, e4, e5, -⟩ := block_indices t
  have h : ((cfg0.win 2).blk t).view.emb (ix2 q k) = ix2 q k := by
    funext a; apply Fin.ext
    match a with
    | ⟨0, _⟩ => show win0_2.index t (0 : Fin 2) * 64 + 1 * q.val = q.val; omega
    | ⟨1, _⟩ => show win0_2.index t (1 : Fin 2) * 64 + 1 * k.val = k.val; omega
  rw [h]

/-! ## What point `t` writes back -/

/-- Point `t` writes back rows `4000·t …` of the message array of the gathered features and the weight. -/
theorem flushed_eq (c : Dev nD) (t : Fin cfg0.N) :
    (dats m 0 c).flushed 3 t
      = ((cfg0.win 3).blk t).view.read (Elt Ideal) (message (V m c main_v6) (m ((c : Thread nD τ).loc main_arg1))) := by
  show (cfg0.win 3).cut (grid0.coords t) ((dats m 0 c).after 3 t) = _
  rw [after0_3]
  unfold out0_3
  rw [View.canon_unit_zero origin]
  simp only [View.ld_unit_zero (S := S4000x64) origin, View.ld_unit_zero (S := S64x64) origin]
  funext j
  obtain ⟨p, q, rfl⟩ : ∃ (p : Fin 4000) (q : Fin 64), j = ix2 p q := ⟨j 0, j 1, eq_ix2 j⟩
  show k0_pay1 (F := Ideal) (iblk m c 0 t) (iblk m c 1 t) (iblk m c 2 t) (ix2 p q)
      = message (V m c main_v6) (m ((c : Thread nD τ).loc main_arg1)) (((cfg0.win 3).blk t).view.emb (ix2 p q))
  obtain ⟨-, -, -, -, -, -, e6, e7⟩ := block_indices t
  have h : ((cfg0.win 3).blk t).view.emb (ix2 p q) = ix2 (edgeRow t p) q := by
    funext a; apply Fin.ext
    match a with
    | ⟨0, _⟩ => show win0_3.index t (0 : Fin 2) * 4000 + 1 * p.val = t.val * 4000 + p.val; omega
    | ⟨1, _⟩ => show win0_3.index t (1 : Fin 2) * 64 + 1 * q.val = q.val; omega
  rw [h]
  exact payload_eq_message (iblk m c 0 t) (iblk m c 1 t) (iblk m c 2 t) (V m c main_v6) (m ((c : Thread nD τ).loc main_arg1))
    (edgeRow t) (features_at m c t) (gate_at m c t) (value_at m c t) p q

/-! ## The blocks tile the array -/

/-- An index of the array is in point `t`'s block iff each coordinate is in the block's range on its axis. -/
theorem mem_block (t : Fin cfg0.N) (i : S1600000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v9).slice (win0_3.rect t)).set ↔ _
  rw [View.set_slice_whole, Rect.mem_set_unit]
  exact Iff.rfl

/-- Row `r` lies in the block of point `r / 4000`, which is written back. -/
theorem covered (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  obtain ⟨t, ht⟩ : ∃ t : Fin cfg0.N, t.val = (i 0).val / 4000 :=
    ⟨⟨(i 0).val / 4000, by show (i 0).val / 4000 < grid0.N; rw [N_0]; omega⟩, rfl⟩
  refine ⟨t, flush0_3 t, ?_⟩
  rw [mem_block]
  obtain ⟨-, -, -, -, -, -, e6, e7⟩ := block_indices t
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-! ## The array after the region -/

/-- The output array ends as the message array of the gathered features and the weight. -/
theorem message_array (c : Dev nD) :
    (dats m 0 c).arrAt 3 cfg0.N = message (V m c main_v6) (m ((c : Thread nD τ).loc main_arg1)) :=
  (dats m 0 c).arrAt_eq_of_cover 3 _ (fun t _ => flushed_eq m c t) covered

end Cert.KernelIdeal.EdgeArray

end
-- ==== Proof.KernelRun.lean ====
/-
  What the kernel program returns, as a function of its arguments.

  Before the region the program gathers, for every edge, the row of the node table at the edge's target index (a
  negative index counting back from the 50000 rows) and cuts the weight into its two halves; the region turns the
  gathered rows into the message array; after the region every message row is added into the row of the node table
  at the edge's source index (normalised the same way). The region's array is `EdgeGate.message` of the gathered
  rows and the weight, so the result is the scatter-add of that message array into the node table, and the
  arguments end as they began.
-/
import proofs.«170670_j34754875359431_1_alg».proof.Proof.EdgeArray

set_option maxRecDepth 16384

noncomputable section

namespace Cert.KernelIdeal.EdgeRun

open Cert.KernelIdeal Cert.KernelIdeal.Gen Cert.KernelIdeal.EdgeArray Cert.EdgeGate
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-- The result of the program from its four live arguments: the node table `x`, the weight `W`, the source
    indices `src` and the target indices `tgt`. -/
def result (x : (⟨S50000x64, .f32⟩ : BufTy).Contents (Elt Ideal)) (W : (⟨S128x64, .f32⟩ : BufTy).Contents (Elt Ideal))
    (src tgt : (⟨S1600000, .i32⟩ : BufTy).Contents (Elt Ideal)) : (⟨S50000x64, .f32⟩ : BufTy).Contents (Elt Ideal) :=
  Host.scatterAdd (F := Ideal) (φ := .f32) scatter_S50000x64_S1600000x1_S1600000x64_1_0_0_1 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 50000#32))) src))
    (message (Host.gather gather_S50000x64_S1600000x1_S1600000x64_1_0_n_n_0_1_164 x (broadcastInDim S1600000x1 ![0] bcast_S1600000_S1600000x1_0 (select (cmpi .slt tgt (broadcastInDim S1600000 ![] bcast_S_S1600000 (constantI S_ 32 0#32))) (addi tgt (broadcastInDim S1600000 ![] bcast_S_S1600000 (constantI S_ 32 50000#32))) tgt))) W)

/-- The gathered rows, as the region finds them. -/
theorem gathered (c : Dev nD) :
    (V m c main_v6 : S1600000x64.Idx → EReal)
      = Host.gather gather_S50000x64_S1600000x1_S1600000x64_1_0_n_n_0_1_164 (m ((c : Thread nD τ).loc main_arg0)) (broadcastInDim S1600000x1 ![0] bcast_S1600000_S1600000x1_0 (select (cmpi .slt (m ((c : Thread nD τ).loc main_arg3)) (broadcastInDim S1600000 ![] bcast_S_S1600000 (constantI S_ 32 0#32))) (addi (m ((c : Thread nD τ).loc main_arg3)) (broadcastInDim S1600000 ![] bcast_S_S1600000 (constantI S_ 32 50000#32))) (m ((c : Thread nD τ).loc main_arg3)))) := by
  show StableHlo.after hostOps0 (fun b => m (c, b)) (Proc.devRef .tc main_v6) = _
  after_results <;> rfl

/-- The program's result buffer after the lines that follow the region. -/
theorem result_eq (c : Dev nD) :
    Pipeline.afterTail₀ cfgs (dats m) 0 (V0 m) [hostOps1] c main_v16
      = result (m ((c : Thread nD τ).loc main_arg0)) (m ((c : Thread nD τ).loc main_arg1)) (m ((c : Thread nD τ).loc main_arg2)) (m ((c : Thread nD τ).loc main_arg3)) := by
  have e0 : (Pipeline.withArrays (cfgs 0).spec c (V0 m c) (fun w => (dats m 0 c).arrAt w (cfgs 0).N) (Proc.devRef .tc main_arg0)) = m ((c : Thread nD τ).loc main_arg0) :=
    (Pipeline.withArrays_of_ne _ c (V0 m c) _ main_arg0 (by exact (by decide : ∀ w, Pipeline.arrRef spec0 w ≠ main_arg0))).trans (V_main_arg0 m c)
  have e2 : (Pipeline.withArrays (cfgs 0).spec c (V0 m c) (fun w => (dats m 0 c).arrAt w (cfgs 0).N) (Proc.devRef .tc main_arg2)) = m ((c : Thread nD τ).loc main_arg2) :=
    (Pipeline.withArrays_of_ne _ c (V0 m c) _ main_arg2 (by exact (by decide : ∀ w, Pipeline.arrRef spec0 w ≠ main_arg2))).trans (V_main_arg2 m c)
  have e9 : (Pipeline.withArrays (cfgs 0).spec c (V0 m c) (fun w => (dats m 0 c).arrAt w (cfgs 0).N) (Proc.devRef .tc main_v9))
      = message (Host.gather gather_S50000x64_S1600000x1_S1600000x64_1_0_n_n_0_1_164 (m ((c : Thread nD τ).loc main_arg0)) (broadcastInDim S1600000x1 ![0] bcast_S1600000_S1600000x1_0 (select (cmpi .slt (m ((c : Thread nD τ).loc main_arg3)) (broadcastInDim S1600000 ![] bcast_S_S1600000 (constantI S_ 32 0#32))) (addi (m ((c : Thread nD τ).loc main_arg3)) (broadcastInDim S1600000 ![] bcast_S_S1600000 (constantI S_ 32 50000#32))) (m ((c : Thread nD τ).loc main_arg3))))) (m ((c : Thread nD τ).loc main_arg1)) :=
    ((Pipeline.withArrays_arr spec0 launch0.win.arr_inj c _ _ 3).trans (message_array m c)).trans
      (congrArg (fun h => message h (m ((c : Thread nD τ).loc main_arg1))) (gathered m c))
  unfold Pipeline.afterTail₀ result
  show StableHlo.after hostOps1 _ (Proc.devRef .tc main_v16) = _
  after_results
  rw [e0, e2, e9]

/-- Every weakly fair execution of the program terminates with the result buffer at `result` of the arguments and the
    arguments unchanged. -/
theorem run : θ_run defs (onTc (τ := τ) (main (F := Ideal))) ⟨m, fun _ => 0, ρ⟩ fun r => ∀ c : Dev nD,
      r.2.mem ((c : Thread nD τ).loc main_v16) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.EdgeRun

end
-- ==== Proof.lean ====
/-
  A gated edge message pass on a graph of 50000 nodes and 1,600,000 edges.

  Both programs gather, for every edge, the 64 features of its target node; form per edge the message
  `σ(h · W_gateᵀ) ⊙ (h · W_valueᵀ)` from the two halves of a 128 × 64 weight; and add each message into the row of
  its source node. The kernel program cuts the weight into its halves first and multiplies a block of 4000 edges
  at a time by each half, applying the sigmoid as one operation; the reference multiplies all edges by the
  transpose of the whole weight, splits the 128 columns, and writes the sigmoid as `1 / (1 + e⁻ˣ)`.

  On the extended reals these are one function. Entry `[k, r]` of the transpose is entry `[r, k]` of the weight, so
  each of the reference's columns is the same sum, term by term, as the kernel's entry (Proof/EdgeMessage.lean
  states the common message array; Proof/RefMessage.lean and Proof/EdgeArray.lean show each program computes it);
  the quotient form of the sigmoid is the sigmoid at every extended real; the gather before and the scatter-add
  after are the same operations applied to equal arrays. No step moves a factor across a sum or cancels, so the
  finiteness of the inputs is never used.

  The frames of the two kernel programs are the generated ones; the reference's frame is its generated run with
  the result dropped; the idealization rewrote no operation, so there is nothing to preserve.
-/
import proofs.«170670_j34754875359431_1_alg».proof.Defs
import proofs.«170670_j34754875359431_1_alg».proof.Proof.Gen.Kernel
import proofs.«170670_j34754875359431_1_alg».proof.Proof.Gen.Kernel.Frame
import proofs.«170670_j34754875359431_1_alg».proof.Proof.Gen.KernelIdeal
import proofs.«170670_j34754875359431_1_alg».proof.Proof.Gen.KernelIdeal.Frame
import proofs.«170670_j34754875359431_1_alg».proof.Proof.Gen.ReferenceIdeal
import proofs.«170670_j34754875359431_1_alg».proof.Proof.Gen.ReferenceIdeal.Run
import proofs.«170670_j34754875359431_1_alg».proof.Proof.Gen.ReferenceIdeal.Read
import proofs.«170670_j34754875359431_1_alg».proof.Proof.Gen.Pre_finite_inputs
import proofs.«170670_j34754875359431_1_alg».proof.Proof.RefMessage
import proofs.«170670_j34754875359431_1_alg».proof.Proof.KernelRun
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-! ## The two results are one function of the arguments -/

/-- The reference's last stage — the scatter-add of its message array into the node table — is the kernel program's
    result function: the message arrays agree (Proof/RefMessage.lean), and the index normalisation, the gather and the
    scatter-add are the same operations on both sides. -/
theorem reference_result (x0 : (⟨Cert.ReferenceIdeal.S50000x64, .f32⟩ : BufTy).Contents (Elt Ideal))
    (x1 : (⟨Cert.ReferenceIdeal.S128x64, .f32⟩ : BufTy).Contents (Elt Ideal))
    (x2 x3 : (⟨Cert.ReferenceIdeal.S1600000, .i32⟩ : BufTy).Contents (Elt Ideal)) :
    Cert.ReferenceIdeal.Read.val_main_v24 (F := Ideal) x0 x1 x2 x3 = Cert.KernelIdeal.EdgeRun.result x0 x1 x2 x3 := by
  unfold Cert.ReferenceIdeal.Read.val_main_v24
  rw [Cert.ReferenceIdeal.RefMessage.message_eq]
  rfl

/-- From memories that agree on the arguments both programs end with the kernel program's result function of them. -/
theorem algebraic : Cert.algebraic_KernelIdeal_ReferenceIdeal := by
  intro m ρ m' ρ' _ hagree
  refine ⟨_, Cert.KernelIdeal.EdgeRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1]
  exact (Cert.ReferenceIdeal.Read.val_main_v24_eq _ _ _ _).trans (reference_result _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
